-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S2000000 : Shape := ⟨1, ![2000000]⟩
abbrev S4096 : Shape := ⟨1, ![4096]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S2000000 32) (main_arg4 : IVec S2000000 32) (main_v13 : IVec S_ 1) (main_v15 : IVec S2000000 1) (main_c_5 : IVec S_ 1) : IVec S_ 1 :=
  let main_v16 : IVec S_ 1 := (fun x v => Host.reduce IntOp.andi x v reducesTo_S2000000_S_d0 h_S_) main_v15 main_c_5
  let main_v17 : IVec S_ 1 := andi main_v13 main_v16
  let main_c_6 : IVec S_ 32 := constantI S_ 32 4096#32
  let main_v18 : IVec S2000000 32 := broadcastInDim S2000000 ![] bcast_S_S2000000 main_c_6
  let main_v19 : IVec S2000000 1 := cmpi .slt main_arg3 main_v18
  let main_c_7 : IVec S_ 1 := constantI S_ 1 1#1
  let main_v20 : IVec S_ 1 := (fun x v => Host.reduce IntOp.andi x v reducesTo_S2000000_S_d0 h_S_) main_v19 main_c_7
  let main_v21 : IVec S_ 1 := andi main_v17 main_v20
  let main_c_8 : IVec S_ 32 := constantI S_ 32 0#32
  let main_v22 : IVec S2000000 32 := broadcastInDim S2000000 ![] bcast_S_S2000000 main_c_8
  let main_v23 : IVec S2000000 1 := cmpi .sge main_arg4 main_v22
  let main_c_9 : IVec S_ 1 := constantI S_ 1 1#1
  let main_v24 : IVec S_ 1 := (fun x v => Host.reduce IntOp.andi x v reducesTo_S2000000_S_d0 h_S_) main_v23 main_c_9
  let main_v25 : IVec S_ 1 := andi main_v21 main_v24
  let main_c_10 : IVec S_ 32 := constantI S_ 32 16384#32
  let main_v26 : IVec S2000000 32 := broadcastInDim S2000000 ![] bcast_S_S2000000 main_c_10
  let main_v27 : IVec S2000000 1 := cmpi .slt main_arg4 main_v26
  let main_c_11 : IVec S_ 1 := constantI S_ 1 1#1
  let main_v28 : IVec S_ 1 := (fun x v => Host.reduce IntOp.andi x v reducesTo_S2000000_S_d0 h_S_) main_v27 main_c_11
  let main_v29 : IVec S_ 1 := andi main_v25 main_v28
  main_v29

def fn {F : FTy → Type} [FloatOps F] (main_arg0 : FVec F S128x16384 .f32) (main_arg1 : FVec F S2000000 .f32) (main_arg2 : FVec F S4096 .f32) (main_arg3 : IVec S2000000 32) (main_arg4 : IVec S2000000 32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg3 main_v14
  let main_c_5 : IVec S_ 1 := constantI S_ 1 1#1
  fn_part1 (F := F) main_arg3 main_arg4 main_v13 main_v15 main_c_5
-- ==== Kernel.lean ====
abbrev S128x16384 : Shape := ⟨2, ![128, 16384]⟩
abbrev S2000000 : Shape := ⟨1, ![2000000]⟩
abbrev S4096 : Shape := ⟨1, ![4096]⟩
abbrev S_ : Shape := ⟨0, ![]⟩
abbrev S67108864 : Shape := ⟨1, ![67108864]⟩
abbrev S2000000x1 : Shape := ⟨2, ![2000000, 1]⟩
abbrev S16384x4096 : Shape := ⟨2, ![16384, 4096]⟩
abbrev S1x4096 : Shape := ⟨2, ![1, 4096]⟩
abbrev S128x4096 : Shape := ⟨2, ![128, 4096]⟩
abbrev S128x1024 : Shape := ⟨2, ![128, 1024]⟩
abbrev S1024x2048 : Shape := ⟨2, ![1024, 2048]⟩
abbrev S1x2048 : Shape := ⟨2, ![1, 2048]⟩
abbrev S128x2048 : Shape := ⟨2, ![128, 2048]⟩

abbrev nBuf : Space → Nat
  | .hbm => 23
  | .vmem => 9
  | .smem => 0
  | _ => 0

abbrev bufTy : (tb : Table) → Fin (tcTables nBuf tb) → BufTy
  | .hbm, ⟨0, _⟩ => ⟨S128x16384, .f32⟩
  | .hbm, ⟨1, _⟩ => ⟨S2000000, .f32⟩
  | .hbm, ⟨2, _⟩ => ⟨S4096, .f32⟩
  | .hbm, ⟨3, _⟩ => ⟨S2000000, .i32⟩
  | .hbm, ⟨4, _⟩ => ⟨S2000000, .i32⟩
  | .hbm, ⟨5, _⟩ => ⟨S_, .i32⟩
  | .hbm, ⟨6, _⟩ => ⟨S2000000, .i32⟩
  | .hbm, ⟨7, _⟩ => ⟨S2000000, .i32⟩
  | .hbm, ⟨8, _⟩ => ⟨S2000000, .i32⟩
  | .hbm, ⟨9, _⟩ => ⟨S_, .f32⟩
  | .hbm, ⟨10, _⟩ => ⟨S67108864, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S67108864, .f32⟩
  | .hbm, ⟨20, _⟩ => ⟨S16384x4096, .f32⟩
  | .hbm, ⟨21, _⟩ => ⟨S1x4096, .f32⟩
  | .hbm, ⟨22, _⟩ => ⟨S128x4096, .f32⟩
  | .local _ .vmem, ⟨0, _⟩ => ⟨S128x1024, .f32⟩
  | .local _ .vmem, ⟨1, _⟩ => ⟨S128x1024, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S2000000 : S_.BroadcastsInDim S2000000 (![] : Fin 0 → Fin S2000000.rank)
  bcast_S_S67108864 : S_.BroadcastsInDim S67108864 (![] : Fin 0 → Fin S67108864.rank)
  bcast_S2000000_S2000000x1_0 : S2000000.BroadcastsInDim S2000000x1 (![0] : Fin 1 → Fin S2000000x1.rank)
  shapeCasts_S67108864_S16384x4096 : S67108864.ShapeCasts S16384x4096
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  scatter_S67108864_S2000000x1_S2000000_n_0_0_1_wf : ScatterDims.WF S67108864 S2000000x1 S2000000 [] [0] [0] 1
  dot_S128x1024_S1024x2048_S128x2048_1_0_0_1_n_n_wf : DotDims.WF S128x1024 S1024x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x16384.size a
  hwx0_0 : ∀ i : grid0.Coords, EltTy.bits .f32 = 32 ∨ (Rect.block (s := S128x16384) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x4096.size a
  hwx0_1 : ∀ i : grid0.Coords, EltTy.bits .f32 = 32 ∨ (Rect.block (s := S16384x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x4096.size a
  hwx0_3 : ∀ i : grid0.Coords, EltTy.bits .f32 = 32 ∨ (Rect.block (s := S128x4096) S128x2048.size (cc0_transform_3 i) (hinb0_3 i)).WholeWords (EltTy.packing .f32)

variable [Facts₀]

def scatter_S67108864_S2000000x1_S2000000_n_0_0_1 : ScatterDims S67108864 S2000000x1 S2000000 where
  updateWindowDims := []
  insertedWindowDims := [0]
  scatterDimsToOperandDims := [0]
  indexVectorDim := 1
  wf := scatter_S67108864_S2000000x1_S2000000_n_0_0_1_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x16384 : Shape := ⟨2, ![128, 16384]⟩
abbrev S2000000 : Shape := ⟨1, ![2000000]⟩
abbrev S4096 : Shape := ⟨1, ![4096]⟩
abbrev S_ : Shape := ⟨0, ![]⟩
abbrev S2000000x1 : Shape := ⟨2, ![2000000, 1]⟩
abbrev S128x2000000 : Shape := ⟨2, ![128, 2000000]⟩
abbrev S1x2000000 : Shape := ⟨2, ![1, 2000000]⟩
abbrev S2000000x128 : Shape := ⟨2, ![2000000, 128]⟩
abbrev S4096x128 : Shape := ⟨2, ![4096, 128]⟩
abbrev S128x4096 : Shape := ⟨2, ![128, 4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S2000000, .f32⟩
  | .hbm, ⟨2, _⟩ => ⟨S4096, .f32⟩
  | .hbm, ⟨3, _⟩ => ⟨S2000000, .i32⟩
  | .hbm, ⟨4, _⟩ => ⟨S2000000, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S128x2000000, .f32⟩
  | .hbm, ⟨14, _⟩ => ⟨S1x2000000, .f32⟩
  | .hbm, ⟨15, _⟩ => ⟨S128x2000000, .f32⟩
  | .hbm, ⟨16, _⟩ => ⟨S128x2000000, .f32⟩
  | .hbm, ⟨17, _⟩ => ⟨S2000000x128, .f32⟩
  | .hbm, ⟨18, _⟩ => ⟨S_, .f32⟩
  | .hbm, ⟨19, _⟩ => ⟨S4096x128, .f32⟩
  | .hbm, ⟨20, _⟩ => ⟨S2000000x1, .i32⟩
  | .hbm, ⟨21, _⟩ => ⟨S4096x128, .f32⟩
  | .hbm, ⟨22, _⟩ => ⟨S128x4096, .f32⟩
  | .hbm, ⟨23, _⟩ => ⟨S1x4096, .f32⟩
  | .hbm, ⟨24, _⟩ => ⟨S128x4096, .f32⟩
  | .hbm, ⟨25, _⟩ => ⟨S128x4096, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000_S1x2000000_1 : S2000000.BroadcastsInDim S1x2000000 (![1] : Fin 1 → Fin S1x2000000.rank)
  bcast_S1x2000000_S128x2000000_0_1 : S1x2000000.BroadcastsInDim S128x2000000 (![0, 1] : Fin 2 → Fin S128x2000000.rank)
  transposes_S128x2000000_S2000000x128_1_0 : S128x2000000.Transposes [1, 0] S2000000x128
  bcast_S_S4096x128 : S_.BroadcastsInDim S4096x128 (![] : Fin 0 → Fin S4096x128.rank)
  transposes_S4096x128_S128x4096_1_0 : S4096x128.Transposes [1, 0] S128x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  gather_S128x16384_S2000000x1_S128x2000000_0_1_n_n_1_1_1281_wf : GatherDims.WF S128x16384 S2000000x1 S128x2000000 [0] [1] [] [1] [] 1 ![128, 1]
  scatter_S4096x128_S2000000x1_S2000000x128_1_0_0_1_wf : ScatterDims.WF S4096x128 S2000000x1 S2000000x128 [1] [0] [0] 1

variable [Facts₀]

def gather_S128x16384_S2000000x1_S128x2000000_0_1_n_n_1_1_1281 : GatherDims S128x16384 S2000000x1 S128x2000000 where
  offsetDims := [0]
  collapsedSliceDims := [1]
  operandBatchingDims := []
  startIndicesBatchingDims := []
  startIndexMap := [1]
  indexVectorDim := 1
  sliceSizes := ![128, 1]
  wf := gather_S128x16384_S2000000x1_S128x2000000_0_1_n_n_1_1_1281_wf
def scatter_S4096x128_S2000000x1_S2000000x128_1_0_0_1 : ScatterDims S4096x128 S2000000x1 S2000000x128 where
  updateWindowDims := [1]
  insertedWindowDims := [0]
  scatterDimsToOperandDims := [0]
  indexVectorDim := 1
  wf := scatter_S4096x128_S2000000x1_S2000000x128_1_0_0_1_wf

class Facts : Prop extends Facts₀ where

variable [Facts]
-- ==== Proof.Spec.lean ====
/-
  The one function both programs compute, index by index over the extended reals.

  A sparse linear layer in coordinate form: entry k of the pattern carries a value v k, an output feature
  rows k in [0, 4096) and an input feature cols k in [0, 16384). For a batch row b and an output feature r the
  result is the sum, over the entries k whose output feature is r, of  x[b, cols k] · v k,  plus the bias at r.
  A column word is read signed and clamped into [0, 16383], as a gather's start index is; on words already in
  range the clamp is the word itself.
-/
import Idealize.ShloMosaic.Lib.ValueIdx

noncomputable section

open scoped BigOperators

namespace Cert.Spec

open Idealize.ShloMosaic Idealize.ShloMosaic.ValueIdx

/-- A column word, read signed and clamped into [0, 16383]. -/
def colIx (w : BitVec 32) : Fin 16384 := ⟨min w.toInt.toNat 16383, Nat.lt_succ_of_le (Nat.min_le_right _ _)⟩

/-- A column word already in [0, 16384) is its own clamp. -/
theorem colIx_val (w : BitVec 32) (h0 : 0 ≤ w.toInt) (h1 : w.toInt < 16384) : ((colIx w).val : ℤ) = w.toInt := by
  unfold colIx
  show ((min w.toInt.toNat 16383 : ℕ) : ℤ) = w.toInt
  omega

/-- The result at (b, r): zero plus the sum over the pattern entries landing on output feature r of
    x[b, col] · value, plus the bias at r. -/
def G (x0 : (⟨2, ![128, 16384]⟩ : Shape).Idx → EReal) (x1 : (⟨1, ![2000000]⟩ : Shape).Idx → EReal)
    (x2 : (⟨1, ![4096]⟩ : Shape).Idx → EReal) (x3 x4 : (⟨1, ![2000000]⟩ : Shape).Idx → BitVec 32) :
    (⟨2, ![128, 4096]⟩ : Shape).Idx → EReal :=
  fun i => (0 + ∑ k ∈ Finset.univ.filter (fun k : Fin 2000000 => (x3 (ix1 k)).toInt = ((i 1).val : ℤ)),
      x0 (ix2 (i 0) (colIx (x4 (ix1 k)))) * x1 (ix1 k)) + x2 (ix1 (i 1))

end Cert.Spec

end
-- ==== Proof.LibScatterResultIdx.lean ====
/-
  Where a scatter's update lands, as an equation per axis.

  An update index j of a scatter lands at the operand index whose coordinate on every axis a is the window's start
  on a (the scatter-index word for a, read signed; 0 on an axis the index map does not name) plus the window
  coordinate of j on a — provided that sum is inside the operand on every axis; otherwise the update is dropped.
  So "j lands exactly at i" says: on every axis, start + window coordinate equals i's coordinate, as integers.
  (The bounds are then automatic, i being an index of the operand.)
-/
import Idealize.ShloMosaic.PureOps.Dims

namespace Idealize.ShloMosaic.ScatterDims

variable {s si u : Shape} (d : ScatterDims s si u)

/-- An update index lands at the operand index i exactly when, on every axis, the signed start plus the window
    coordinate is i's coordinate. -/
theorem resultIdx?_eq_some_iff {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have hfa := congrFun (Option.some.inj h) a
      have hv : (d.start j idx a + (d.window j a : ℤ)).toNat = (i a).val := congrArg Fin.val hfa
      have := hh a
      omega
    · exact absurd h (by simp)
  · intro h
    have hh : ∀ a, 0 ≤ d.start j idx a + (d.window j a : ℤ) ∧ d.start j idx a + (d.window j a : ℤ) < (s.size a : ℤ) :=
      fun a => by have := h a; have := (i a).isLt; omega
    rw [dif_pos hh]
    congr 1
    funext a
    apply Fin.ext
    show (d.start j idx a + (d.window j a : ℤ)).toNat = (i a).val
    have := h a
    omega

end Idealize.ShloMosaic.ScatterDims
-- ==== Proof.KernelHost.lean ====
/-
  The arrays the kernel's region finds: the dense weight matrix the host code builds from the sparse pattern, and
  the bias as a row.

  Pattern entry q carries a column word c and a row word r; the host code forms the flat position c·4096 + r in
  32-bit arithmetic, wraps a negative position by the buffer's length, scatter-adds the entry's value there into a
  zero buffer of 16384·4096 elements, and reads the buffer as a [16384, 4096] matrix in row-major order. With
  0 ≤ c < 16384 and 0 ≤ r < 4096 the position is below 2²⁶: the 32-bit product and sum do not wrap, the position is
  not negative, and position k·4096 + n (n < 4096) is hit exactly by the entries with c = k and r = n. So entry
  (k, n) of the matrix is zero plus the sum of the values of the pattern entries with column k and row n.
-/
import proofs.«422672_j88218628260171_2_alg».proof.Proof.Gen.KernelIdeal.Frame
import proofs.«422672_j88218628260171_2_alg».proof.Proof.Spec
import proofs.«422672_j88218628260171_2_alg».proof.Proof.LibScatterResultIdx
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

/-! ## The flat position of a pattern entry -/

/-- A word whose signed reading is in [0, 2³¹) reads the same unsigned. -/
theorem toNat_of_toInt_nonneg (w : BitVec 32) (h0 : 0 ≤ w.toInt) : (w.toNat : ℤ) = w.toInt := by
  have := w.isLt
  rw [BitVec.toInt_eq_toNat_cond] at h0 ⊢
  split at h0 <;> rename_i h <;> simp only [h, if_true, if_false] <;> omega

/-- The flat position as the host code computes it, one entry: column · 4096 + row in 32-bit arithmetic, a negative
    result wrapped by 67108864. -/
def flatWord (cw rw : BitVec 32) : BitVec 32 :=
  Scalar.select (IntOp.cmpi .slt (IntOp.addi (IntOp.muli cw 4096#32) rw) 0#32)
    (IntOp.addi (IntOp.addi (IntOp.muli cw 4096#32) rw) 67108864#32) (IntOp.addi (IntOp.muli cw 4096#32) rw)

/-- In range, nothing wraps: the flat position read signed is column · 4096 + row. -/
theorem flatWord_toInt (cw rw : BitVec 32) (hc0 : 0 ≤ cw.toInt) (hc1 : cw.toInt < 16384) (hr0 : 0 ≤ rw.toInt)
    (hr1 : rw.toInt < 4096) : (flatWord cw rw).toInt = cw.toInt * 4096 + rw.toInt := by
  have hc := toNat_of_toInt_nonneg cw hc0
  have hr := toNat_of_toInt_nonneg rw hr0
  have hsum : (IntOp.addi (IntOp.muli cw 4096#32) rw).toNat = cw.toNat * 4096 + rw.toNat := by
    unfold IntOp.addi IntOp.muli
    rw [BitVec.toNat_add, BitVec.toNat_mul]
    simp only [BitVec.toNat_ofNat]
    omega
  have hlt : (IntOp.addi (IntOp.muli cw 4096#32) rw).toNat < 2 ^ 31 := by rw [hsum]; omega
  have hint : (IntOp.addi (IntOp.muli cw 4096#32) rw).toInt = cw.toInt * 4096 + rw.toInt := by
    rw [BitVec.toInt_eq_toNat_cond, if_pos (by omega), hsum]
    push_cast
    omega
  have hneg : IntOp.cmpi .slt (IntOp.addi (IntOp.muli cw 4096#32) rw) 0#32 ≠ 1#1 := by
    unfold IntOp.cmpi
    simp only [BitVec.slt, BitVec.toInt_zero]
    rw [hint]
    have : ¬ (cw.toInt * 4096 + rw.toInt < 0) := by omega
    simp [this]
  unfold flatWord Scalar.select
  rw [if_neg (show ¬ (IntOp.cmpi .slt (IntOp.addi (IntOp.muli cw 4096#32) rw) 0#32 = (1 : BitVec 1)) from hneg)]
  exact hint

/-! ## Where the flat scatter lands -/

/-- Row p of the [2000000, 1] table of flat positions. -/
abbrev rowOf (p : Fin 2000000) : S2000000x1.Idx := fun a => match a with | ⟨0, _⟩ => p | ⟨1, _⟩ => (0 : Fin 1)

/-- The window of update j starts, on the flat buffer's one axis, at the position word of row j read signed; -/
theorem flat_start (j : S2000000.Idx) (idx : IVec S2000000x1 32) :
    scatter_S67108864_S2000000x1_S2000000_n_0_0_1.start j idx 0 = (idx (rowOf (j 0))).toInt := by
  unfold ScatterDims.start
  rw [dif_pos (show (0 : Fin 1) ∈ scatter_S67108864_S2000000x1_S2000000_n_0_0_1.scatterDimsToOperandDims from
    List.mem_singleton.mpr rfl)]
  congr 2
  funext b
  refine Fin.ext ?_
  match b with
  | ⟨0, _⟩ => rfl
  | ⟨1, _⟩ => rfl

/-- and an update is a single element: no window coordinate. -/
theorem flat_window (j : S2000000.Idx) : scatter_S67108864_S2000000x1_S2000000_n_0_0_1.window j 0 = 0 := by
  unfold ScatterDims.window
  rw [dif_neg (by decide)]

/-- Update j lands at flat position i exactly when the position word of row j, read signed, is i. -/
theorem flat_lands_iff (j : S2000000.Idx) (idx : IVec S2000000x1 32) (i : S67108864.Idx) :
    scatter_S67108864_S2000000x1_S2000000_n_0_0_1.resultIdx? j idx = some i ↔ (idx (rowOf (j 0))).toInt = ((i 0).val : ℤ) := by
  rw [ScatterDims.resultIdx?_eq_some_iff]
  constructor
  · intro h
    have := h 0
    rw [flat_start, flat_window] at this
    simpa using this
  · intro h a
    obtain rfl : a = 0 := Subsingleton.elim _ _
    rw [flat_start, flat_window]
    simpa using h

/-! ## The matrix the region finds -/

/-- The flat positions of all pattern entries, as the host code computes them from the column and row words. -/
def flatIdx (cols rows : IVec S2000000 32) : IVec S2000000 32 :=
  select
    (cmpi .slt (addi (muli cols (broadcastInDim S2000000 ![] bcast_S_S2000000 (constantI S_ 32 4096#32))) rows)
      (broadcastInDim S2000000 ![] bcast_S_S2000000 (constantI S_ 32 0#32)))
    (addi (addi (muli cols (broadcastInDim S2000000 ![] bcast_S_S2000000 (constantI S_ 32 4096#32))) rows)
      (broadcastInDim S2000000 ![] bcast_S_S2000000 (constantI S_ 32 67108864#32)))
    (addi (muli cols (broadcastInDim S2000000 ![] bcast_S_S2000000 (constantI S_ 32 4096#32))) rows)

/-- Entry by entry it is the one-entry computation. -/
theorem flatIdx_apply (cols rows : IVec S2000000 32) (i : S2000000.Idx) :
    flatIdx cols rows i = flatWord (cols i) (rows i) := rfl

/-- The flat buffer after the scatter-add, read as the [16384, 4096] matrix. -/
def weightOf (x1 : FVec Ideal S2000000 .f32) (x3 x4 : IVec S2000000 32) : FVec Ideal S16384x4096 .f32 :=
  shapeCast S16384x4096
    (Host.scatterAdd (F := Ideal) scatter_S67108864_S2000000x1_S2000000_n_0_0_1
      (broadcastInDim S67108864 ![] bcast_S_S67108864 (constant (F := Ideal) S_ .f32 0x00000000#32))
      (broadcastInDim S2000000x1 ![0] bcast_S2000000_S2000000x1_0 (flatIdx x4 x3))
      x1)
    shapeCasts_S67108864_S16384x4096

/-- The indices of a length-n vector are the numbers below n. -/
def idxEquiv1 (n : Nat) : Fin n ≃ (⟨1, ![n]⟩ : Shape).Idx where
  toFun q := ix1 q
  invFun j := j 0
  left_inv _ := rfl
  right_inv j := (eq_ix1 j).symm

/-- A sum over the vector indices satisfying P is the sum over the numbers q below n satisfying Q, when P at the
    index of q says Q of q. (Stated for a length n that is a variable: the index sets are never listed.) -/
theorem sum_filter_idx1 {M : Type*} [AddCommMonoid M] {n : Nat} (P : (⟨1, ![n]⟩ : Shape).Idx → Prop) [DecidablePred P]
    (Q : Fin n → Prop) [DecidablePred Q] (hPQ : ∀ q, P (ix1 q) ↔ Q q) (f : (⟨1, ![n]⟩ : Shape).Idx → M) :
    ∑ j ∈ Finset.univ.filter P, f j = ∑ q ∈ Finset.univ.filter Q, f (ix1 q) := by
  rw [Finset.sum_filter, Finset.sum_filter, ← Equiv.sum_comp (idxEquiv1 n)]
  refine Finset.sum_congr rfl fun q _ => ?_
  show (if P (ix1 q) then f (ix1 q) else 0) = if Q q then f (ix1 q) else 0
  by_cases hQ : Q q
  · rw [if_pos ((hPQ q).mpr hQ), if_pos hQ]
  · rw [if_neg (fun h => hQ ((hPQ q).mp h)), if_neg hQ]

/-- A scatter-add of a length-n vector of updates, read at the operand index i (stated for a variable length n and
    any operand and index shapes): the operand at i plus the updates q that land at i, "lands at i" being given as a
    condition P on q. This is where the host's scatter-add is read as the exact sum over the landing updates. -/
theorem scatterAdd_vec_apply {s si : Shape} {n w : Nat} {φ : FTy} (d : ScatterDims s si ⟨1, ![n]⟩)
    (x : FVec Ideal s φ) (idx : IVec si w) (upd : FVec Ideal ⟨1, ![n]⟩ φ) (i : s.Idx)
    (P : Fin n → Prop) [DecidablePred P] (h : ∀ q, d.resultIdx? (ix1 q) idx = some i ↔ P q) :
    Host.scatterAdd (F := Ideal) d x idx upd i = (x i : EReal) + ∑ q ∈ Finset.univ.filter P, (upd (ix1 q) : EReal) := by
  show Ideal.hostScatterAdd d x idx upd i = _
  unfold Ideal.hostScatterAdd
  exact congrArg (fun t : EReal => (x i : EReal) + t) (sum_filter_idx1 _ P h upd)

/-- The zero word of f32 broadcast to any shape reads 0 everywhere. -/
theorem zeros_apply {t : Shape} (h : S_.BroadcastsInDim t ![]) (i : t.Idx) :
    (broadcastInDim t ![] h (constant (F := Ideal) S_ .f32 0x00000000#32) i : EReal) = 0 :=
  Ideal.ofBits_zero_f32

/-- ENTRY (k, n) OF THE MATRIX: zero plus the values of the pattern entries whose row word is n and whose column
    word is k, when every row word is in [0, 4096) and every column word in [0, 16384). -/
theorem weightOf_apply (x1 : FVec Ideal S2000000 .f32) (x3 x4 : IVec S2000000 32)
    (hr : ∀ i, 0 ≤ (x3 i).toInt ∧ (x3 i).toInt < 4096) (hc : ∀ i, 0 ≤ (x4 i).toInt ∧ (x4 i).toInt < 16384)
    (k : Fin 16384) (n : Fin 4096) :
    weightOf x1 x3 x4 (ix2 k n)
      = 0 + ∑ q ∈ Finset.univ.filter (fun q : Fin 2000000 =>
          (x3 (ix1 q)).toInt = (n.val : ℤ) ∧ Cert.Spec.colIx (x4 (ix1 q)) = k), x1 (ix1 q) := by
  have hk := k.isLt
  have hn := n.isLt
  have hlands : ∀ q : Fin 2000000,
      scatter_S67108864_S2000000x1_S2000000_n_0_0_1.resultIdx? (ix1 q)
          (broadcastInDim S2000000x1 ![0] bcast_S2000000_S2000000x1_0 (flatIdx x4 x3))
          = some (ix1 (⟨k.val * 4096 + n.val, by omega⟩ : Fin 67108864))
        ↔ ((x3 (ix1 q)).toInt = (n.val : ℤ) ∧ Cert.Spec.colIx (x4 (ix1 q)) = k) := fun q => by
    have hb : broadcastInDim S2000000x1 ![0] bcast_S2000000_S2000000x1_0 (flatIdx x4 x3) (rowOf q) = flatIdx x4 x3 (ix1 q) :=
      broadcastInDim_apply _ bcast_S2000000_S2000000x1_0 (flatIdx x4 x3) (rowOf q) (ix1 q) (fun a => match a with
        | ⟨0, _⟩ => by show q.val = if (2000000 : Nat) = 1 then 0 else q.val; rw [if_neg (by decide)])
    have hflat := flatWord_toInt (x4 (ix1 q)) (x3 (ix1 q)) (hc (ix1 q)).1 (hc (ix1 q)).2 (hr (ix1 q)).1 (hr (ix1 q)).2
    have hcol := Cert.Spec.colIx_val (x4 (ix1 q)) (hc (ix1 q)).1 (hc (ix1 q)).2
    have hr' := hr (ix1 q)
    rw [flat_lands_iff]
    show (broadcastInDim S2000000x1 ![0] bcast_S2000000_S2000000x1_0 (flatIdx x4 x3) (rowOf q)).toInt
      = ((k.val * 4096 + n.val : ℕ) : ℤ) ↔ _
    rw [hb, flatIdx_apply, hflat, Fin.ext_iff]
    push_cast
    constructor
    · intro h; constructor <;> omega
    · rintro ⟨h1, h2⟩; omega
  have hcast : weightOf x1 x3 x4 (ix2 k n)
      = Host.scatterAdd (F := Ideal) scatter_S67108864_S2000000x1_S2000000_n_0_0_1
          (broadcastInDim S67108864 ![] bcast_S_S67108864 (constant (F := Ideal) S_ .f32 0x00000000#32))
          (broadcastInDim S2000000x1 ![0] bcast_S2000000_S2000000x1_0 (flatIdx x4 x3)) x1
          (ix1 (⟨k.val * 4096 + n.val, by omega⟩ : Fin 67108864)) :=
    shapeCast_apply _ shapeCasts_S67108864_S16384x4096 (ix2 k n) (ix1 (⟨k.val * 4096 + n.val, by omega⟩ : Fin 67108864)) (by
      rw [Shape.rowMajor_val_one, Shape.rowMajor_val_two]; rfl)
  refine hcast.trans ((scatterAdd_vec_apply _ _ _ x1 _ _ hlands).trans ?_)
  exact congrArg (fun t : EReal => t + ∑ q ∈ Finset.univ.filter (fun q : Fin 2000000 =>
      (x3 (ix1 q)).toInt = (n.val : ℤ) ∧ Cert.Spec.colIx (x4 (ix1 q)) = k), (x1 (ix1 q) : EReal)) (zeros_apply _ _)

end Cert.KernelIdeal.Host

end
-- ==== Proof.KernelArrays.lean ====
/-
  What the kernel's region is handed: the three arrays its windows stage, as functions of the program's arguments.
  The batch of inputs is the first argument itself; the weight matrix is the flat scatter-add of the pattern's values
  read as [16384, 4096]; the bias row is the bias vector read as [1, 4096].
-/
import proofs.«422672_j88218628260171_2_alg».proof.Proof.KernelHost

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

set_option maxHeartbeats 4000000 in
/-- The weight matrix the region finds is the one built from the values, the row words and the column words. -/
theorem V_weight (c : Dev nD) :
    (V m c main_v11 : S16384x4096.Idx → EReal)
      = weightOf (m ((c : Thread nD τ).loc main_arg1)) (m ((c : Thread nD τ).loc main_arg3))
          (m ((c : Thread nD τ).loc main_arg4)) := by
  dsimp only [V, hostOps0]
  after_results
  rfl

set_option maxHeartbeats 4000000 in
/-- The bias row the region finds is the bias vector, reshaped. -/
theorem V_bias (c : Dev nD) :
    (V m c main_v12 : S1x4096.Idx → EReal)
      = shapeCast S1x4096 (m ((c : Thread nD τ).loc main_arg2)) shapeCasts_S4096_S1x4096 := by
  dsimp only [V, hostOps0]
  after_results
  rfl

/-- Column n of the bias row is entry n of the bias vector. -/
theorem V_bias_apply (c : Dev nD) (n : Fin 4096) :
    (V m c main_v12 : S1x4096.Idx → EReal) (ix2 (0 : Fin 1) n) = m ((c : Thread nD τ).loc main_arg2) (ix1 n) := by
  rw [V_bias]
  exact shapeCast_apply _ _ (ix2 (0 : Fin 1) n) (ix1 n) (by
    rw [Shape.rowMajor_val_one, Shape.rowMajor_val_two]
    show n.val = 0 * 4096 + n.val
    omega)

end Cert.KernelIdeal.Host

end
-- ==== Proof.KernelRegionAcc.lean ====
/-
  The value the blocked matrix product with bias leaves in its accumulator, point by point.

  The kernel computes out[128,4096] = A[128,16384] · W[16384,4096] + bias[1,4096] over a grid of 2 × 16 points:
  point t = 16·nt + kt works on the column tile nt (2048 output columns) and the reduction tile kt (1024 contracted
  coordinates).  A scratch block [128,2048] is carried between the points of a run of sixteen: it is zeroed at kt = 0
  and at every point the product of the point's block of A ([128,1024]) and block of W ([1024,2048]) is added to it;
  at kt = 15 the bias row's block, broadcast down the rows, is added to give the output block.

  This module reads that off the generated frame: what each control case leaves in the scratch and in the output as
  the body's arithmetic of the blocks it loaded; that arithmetic at one entry at the ideal values (the format changes
  and same-shape casts are the identity, the matrix unit's product into a zero accumulator is the plain sum over the
  contracted coordinate); each staged block as the part of its array the window's rectangle names; and, over the
  generated fold of the scratch, the scratch after any point as the sum of the addends of its run's points so far.
  Sums are taken in the extended reals, where addition is commutative and associative, so no finiteness is needed.
-/
import proofs.«422672_j88218628260171_2_alg».proof.Proof.Gen.KernelIdeal.Value
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Tactic

variable {F : FTy → Type} [FloatOps F]

/-- The zero offsets of a whole-block access, however they are spelt. -/
theorem hz : (![0, 0] : Fin 2 → Nat) = fun _ => 0 := funext fun a => by fin_cases a <;> rfl

/-! ## What each control case leaves, as the body's arithmetic of the blocks it loaded

A point of the grid runs one of three cases of the body.  At the first point of a run of sixteen the scratch is
zeroed and the product of the point's two blocks is added to it; at a middle point the product is added to what the
point before left; at the last point the same is done and the bias row, broadcast down the rows, is added to the
scratch to give the output block. -/

/-- First point of a run: the scratch ends as the zero block plus the product of the two blocks. -/
theorem sout_A (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i)
    (x0 : Vec F S128x1024 .f32) (x1 : Vec F S1024x2048 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x2048) hz, View.readCov_unit_zero (S := S128x2048) _ hz]
  simp only [View.readAt_eq_ld, harg2.read_unread, harg3.read_unread, View.ld_unit_zero (S := S128x1024) hz,
    View.ld_unit_zero (S := S1024x2048) hz]

/-- Middle point: the scratch ends as what it held plus the product of the two blocks. -/
theorem sout_B (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i)
    (x0 : Vec F S128x1024 .f32) (x1 : Vec F S1024x2048 .f32) (x2 : Vec F S1x2048 .f32) (xs0 : Vec F S128x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S128x2048) hz]
  simp only [View.readAt_eq_ld, harg2.read_unread, harg3.read_unread, harg6.read_unread, View.ld_unit_zero (S := S128x1024) hz,
    View.ld_unit_zero (S := S1024x2048) hz, View.ld_unit_zero (S := S128x2048) hz]

/-- Last point of a run: the scratch likewise. -/
theorem sout_C (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i)
    (x0 : Vec F S128x1024 .f32) (x1 : Vec F S1024x2048 .f32) (x2 : Vec F S1x2048 .f32) (xs0 : Vec F S128x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S128x2048) hz]
  simp only [View.readAt_eq_ld, harg2.read_unread, harg3.read_unread, harg6.read_unread, View.ld_unit_zero (S := S128x1024) hz,
    View.ld_unit_zero (S := S1024x2048) hz, View.ld_unit_zero (S := S128x2048) hz]

/-- Last point of a run: the output block is the updated scratch plus the bias row broadcast down the rows. -/
theorem out_C (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i)
    (x0 : Vec F S128x1024 .f32) (x1 : Vec F S1024x2048 .f32) (x2 : Vec F S1x2048 .f32) (xs0 : Vec F S128x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S128x2048) hz]
  simp only [View.readAt_eq_ld, harg2.read_unread, harg3.read_unread, harg4.read_unread, harg6.read_unread,
    View.ld_unit_zero (S := S128x1024) hz, View.ld_unit_zero (S := S1024x2048) hz, View.ld_unit_zero (S := S128x2048) hz,
    View.ld_unit_zero (S := S1x2048) hz, View.readCov_unit_zero (S := S128x2048) _ hz]

/-! ## The body's arithmetic read at one entry, at the ideal values

At the ideal values the two format changes are the identity, a shape cast to the same shape is the identity, and the
matrix unit's product into a zero accumulator is the plain sum over the contracted coordinate. -/

/-- Left operand, row axis: the result's row. -/
theorem lhs_dot_0 (j : S128x2048.Idx) (k : dot_S128x1024_S1024x2048_S128x2048_1_0_0_1_n_n.contr.Idx) :
    ((dot_S128x1024_S1024x2048_S128x2048_1_0_0_1_n_n.lhsIdx j k) 0).val = (j 0).val := by
  unfold DotDims.lhsIdx
  rw [dif_neg (show ¬(0 : Fin S128x1024.rank) ∈ dot_S128x1024_S1024x2048_S128x2048_1_0_0_1_n_n.lhsBatch by decide),
    dif_pos (show (0 : Fin S128x1024.rank) ∈ dot_S128x1024_S1024x2048_S128x2048_1_0_0_1_n_n.lhsNonContracting by decide)]
  rfl

/-- Left operand, column axis: the contracted coordinate. -/
theorem lhs_dot_1 (j : S128x2048.Idx) (k : dot_S128x1024_S1024x2048_S128x2048_1_0_0_1_n_n.contr.Idx) :
    ((dot_S128x1024_S1024x2048_S128x2048_1_0_0_1_n_n.lhsIdx j k) 1).val = (k ⟨0, by decide⟩).val :=
  dot_S128x1024_S1024x2048_S128x2048_1_0_0_1_n_n.lhsIdx_val_of_single (cl := 1) rfl j k

/-- Right operand, row axis: the contracted coordinate. -/
theorem rhs_dot_0 (j : S128x2048.Idx) (k : dot_S128x1024_S1024x2048_S128x2048_1_0_0_1_n_n.contr.Idx) :
    ((dot_S128x1024_S1024x2048_S128x2048_1_0_0_1_n_n.rhsIdx j k) 0).val = (k ⟨0, by decide⟩).val :=
  dot_S128x1024_S1024x2048_S128x2048_1_0_0_1_n_n.rhsIdx_val_of_single (cr := 0) rfl j k

/-- Right operand, column axis: the result's column. -/
theorem rhs_dot_1 (j : S128x2048.Idx) (k : dot_S128x1024_S1024x2048_S128x2048_1_0_0_1_n_n.contr.Idx) :
    ((dot_S128x1024_S1024x2048_S128x2048_1_0_0_1_n_n.rhsIdx j k) 1).val = (j 1).val := by
  unfold DotDims.rhsIdx
  rw [dif_neg (show ¬(1 : Fin S1024x2048.rank) ∈ dot_S128x1024_S1024x2048_S128x2048_1_0_0_1_n_n.rhsBatch by decide),
    dif_pos (show (1 : Fin S1024x2048.rank) ∈ dot_S128x1024_S1024x2048_S128x2048_1_0_0_1_n_n.rhsNonContracting by decide)]
  rfl

/-- The zeroed scratch is zero at every entry. -/
theorem pay1_apply (j : S128x2048.Idx) : (k0_pay1 (F := Ideal) : S128x2048.Idx → EReal) j = 0 := by
  unfold k0_pay1
  rw [shapeCast_self]
  exact Ideal.ofBits_zero_f32

/-- The update at an entry: what the scratch held there plus the sum over the 1024 contracted coordinates of the
    products of the row of the left block and the column of the right block. -/
theorem pay2_apply (x0 : Vec Ideal S128x1024 .f32) (x1 : Vec Ideal S1024x2048 .f32) (acc : Vec Ideal S128x2048 .f32)
    (p : Fin 128) (q : Fin 2048) :
    (k0_pay2 (F := Ideal) x0 x1 acc : S128x2048.Idx → EReal) (ix2 p q)
      = (acc : S128x2048.Idx → EReal) (ix2 p q)
        + ∑ l : Fin 1024, (x0 : S128x1024.Idx → EReal) (ix2 p l) * (x1 : S1024x2048.Idx → EReal) (ix2 l q) := by
  unfold k0_pay2
  rw [shapeCast_self, shapeCast_self]
  refine (addf_apply _ _ _).trans ?_
  refine congrArg (fun z => (acc : S128x2048.Idx → EReal) (ix2 p q) + z) ?_
  refine (Ideal.matmul_constant_zero_apply dot_S128x1024_S1024x2048_S128x2048_1_0_0_1_n_n none
    (truncf .bf16 x0 bitsLt_bf16_f32) (truncf .bf16 x1 bitsLt_bf16_f32) (ix2 p q)).trans ?_
  rw [← Equiv.sum_comp (contrEquiv1 dot_S128x1024_S1024x2048_S128x2048_1_0_0_1_n_n 1024 rfl rfl).symm]
  refine Finset.sum_congr rfl fun l _ => ?_
  have hk := contrEquiv1_symm_val dot_S128x1024_S1024x2048_S128x2048_1_0_0_1_n_n 1024 rfl rfl l
  rw [truncf_apply, truncf_apply]
  congr 2
  · funext a
    apply Fin.ext
    match a with
    | ⟨0, _⟩ => exact lhs_dot_0 _ _
    | ⟨1, _⟩ => exact (lhs_dot_1 _ _).trans hk
  · funext a
    apply Fin.ext
    match a with
    | ⟨0, _⟩ => exact (rhs_dot_0 _ _).trans hk
    | ⟨1, _⟩ => exact rhs_dot_1 _ _

/-- The epilogue at an entry: the scratch there plus the bias row's entry of that column. -/
theorem pay3_apply (acc : Vec Ideal S128x2048 .f32) (b : Vec Ideal S1x2048 .f32) (p : Fin 128) (q : Fin 2048) :
    (k0_pay3 (F := Ideal) acc b : S128x2048.Idx → EReal) (ix2 p q)
      = (acc : S128x2048.Idx → EReal) (ix2 p q) + (b : S1x2048.Idx → EReal) (ix2 (0 : Fin 1) q) := by
  unfold k0_pay3
  rw [shapeCast_self]
  refine (addf_apply _ _ _).trans ?_
  refine congrArg (fun z => (acc : S128x2048.Idx → EReal) (ix2 p q) + z) ?_
  refine broadcastTo_apply _ _ _ _ fun a => ?_
  match a with
  | ⟨0, _⟩ => rfl
  | ⟨1, _⟩ => rfl

/-! ## The blocks the windows stage, read off the arrays

Point `t` of the grid is the pair (column tile `t / 16`, reduction tile `t % 16`).  The left operand's block is its
columns `1024·(t % 16) …`, the right operand's block its rows `1024·(t % 16) …` and columns `2048·(t / 16) …`, the
bias row's and the output's blocks the columns `2048·(t / 16) …`. -/

section Blocks

variable (m : (ℓ : Loc nD τ sig) → Buf (Elt F) ℓ)

/-- Each window's block index at a point, per axis: decided over the 32 points. -/
theorem idx_facts : ∀ t : Fin cfg0.N,
    win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16
    ∧ win0_3.index t (0 : Fin 2) = 0 ∧ win0_3.index t (1 : Fin 2) = t.val / 16 :=
  (by decide +kernel : ∀ t : Fin grid0.N, _)

/-- The blocks and the arrays under their literal vector types. -/
abbrev ablk (c : Dev nD) (t : Fin cfg0.N) : Vec F S128x1024 .f32 := iblk m c 0 t
abbrev wblk (c : Dev nD) (t : Fin cfg0.N) : Vec F S1024x2048 .f32 := iblk m c 1 t
abbrev bblk (c : Dev nD) (t : Fin cfg0.N) : Vec F S1x2048 .f32 := iblk m c 2 t
abbrev Aarr (c : Dev nD) : Vec F S128x16384 .f32 := V m c main_arg0
abbrev Warr (c : Dev nD) : Vec F S16384x4096 .f32 := V m c main_v11
abbrev Barr (c : Dev nD) : Vec F S1x4096 .f32 := V m c main_v12

/-- The left operand's block at a point is its columns from `1024·(t % 16)` on. -/
theorem ablk_apply (c : Dev nD) (t : Fin cfg0.N) (x : S128x1024.Idx) (k : S128x16384.Idx)
    (hk0 : (k 0).val = (x 0).val) (hk1 : (k 1).val = 1024 * (t.val % 16) + (x 1).val) :
    ablk m c t x = Aarr m c k := by
  obtain ⟨e0, e1, -⟩ := idx_facts t
  unfold ablk Aarr iblk
  rw [View.read_apply]
  show V m c main_arg0 _ = V m c main_arg0 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 1024 + 1 * (x 1).val = (k 1).val; rw [e1, hk1]; omega

/-- The right operand's block at a point is its rows from `1024·(t % 16)` and columns from `2048·(t / 16)` on. -/
theorem wblk_apply (c : Dev nD) (t : Fin cfg0.N) (x : S1024x2048.Idx) (k : S16384x4096.Idx)
    (hk0 : (k 0).val = 1024 * (t.val % 16) + (x 0).val) (hk1 : (k 1).val = 2048 * (t.val / 16) + (x 1).val) :
    wblk m c t x = Warr m c k := by
  obtain ⟨-, -, e0, e1, -⟩ := idx_facts t
  unfold wblk Warr iblk
  rw [View.read_apply]
  show V m c main_v11 _ = V m c main_v11 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 2048 + 1 * (x 1).val = (k 1).val; rw [e1, hk1]; omega

/-- The bias row's block at a point is its columns from `2048·(t / 16)` on. -/
theorem bblk_apply (c : Dev nD) (t : Fin cfg0.N) (x : S1x2048.Idx) (k : S1x4096.Idx)
    (hk0 : (k 0).val = (x 0).val) (hk1 : (k 1).val = 2048 * (t.val / 16) + (x 1).val) :
    bblk m c t x = Barr m c k := by
  obtain ⟨-, -, -, -, e0, e1, -⟩ := idx_facts t
  unfold bblk Barr iblk
  rw [View.read_apply]
  show V m c main_v12 _ = V m c main_v12 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 2048 + 1 * (x 1).val = (k 1).val; rw [e1, hk1]; omega

end Blocks

/-! ## What a point leaves in the scratch, and the scratch after any point

The scratch after point `t` is the fold, from the first point of `t`'s run of sixteen, of "add the product of the
point's two blocks", started from zero: entry by entry, the sum over the run's points up to `t` of each point's
addend. -/

section Step

variable (m : (ℓ : Loc nD τ sig) → Buf (Elt F) ℓ)

/-- At the first point of a run the scratch is zeroed and updated. -/
theorem scAt_reset (c : Dev nD) (n : ℕ) (hb : n < cfg0.N) (hn : n % 16 = 0) (acc : Vec F S128x2048 .f32) :
    Value.scAt0_0 m c n hb acc = k0_pay2 (ablk m c (⟨n, hb⟩ : Fin cfg0.N)) (wblk m c (⟨n, hb⟩ : Fin cfg0.N)) (k0_pay1 (F := F)) := by
  have h1 : ¬n % 16 = 15 := by omega
  unfold Value.scAt0_0
  rw [dif_pos hn, dif_neg h1]
  exact sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr hn) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At every other point it is updated from what the point before left. -/
theorem scAt_step (c : Dev nD) (n : ℕ) (hb : n < cfg0.N) (hn : ¬n % 16 = 0) (acc : Vec F S128x2048 .f32) :
    Value.scAt0_0 m c n hb acc = k0_pay2 (ablk m c (⟨n, hb⟩ : Fin cfg0.N)) (wblk m c (⟨n, hb⟩ : Fin cfg0.N)) acc := by
  unfold Value.scAt0_0
  rw [dif_neg hn]
  by_cases h1 : n % 16 = 15
  · rw [dif_pos h1]
    exact sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => hn ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => hn ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

end Step

section AtIdeal

variable (m : (ℓ : Loc nD τ sig) → Buf (Elt Ideal) ℓ)

/-- The left operand read at a row and a natural column (zero past the array, never used there). -/
def rdA (A : S128x16384.Idx → EReal) (p : Fin 128) (k : ℕ) : EReal :=
  if h : k < 16384 then A (ix2 p ⟨k, h⟩) else 0

/-- The right operand read at a natural row and column (zero past the array, never used there). -/
def rdW (W : S16384x4096.Idx → EReal) (k q : ℕ) : EReal :=
  if h : k < 16384 ∧ q < 4096 then W (ix2 ⟨k, h.1⟩ ⟨q, h.2⟩) else 0

/-- One term of the inner product of row `p` of the left operand and column `q` of the right: the contracted
    coordinate `k`'s. -/
def term (A : S128x16384.Idx → EReal) (W : S16384x4096.Idx → EReal) (p : Fin 128) (q : ℕ) (k : ℕ) : EReal :=
  rdA A p k * rdW W k q

/-- Point `n`'s addend at an entry of the scratch: the part of the inner product over the point's 1024 contracted
    coordinates. -/
def addend (c : Dev nD) (n : ℕ) (i : S128x2048.Idx) : EReal :=
  ∑ l : Fin 1024, term (Aarr m c) (Warr m c) (i 0) (2048 * (n / 16) + (i 1).val) (1024 * (n % 16) + l.val)

/-- The update at a point, at an entry: what the scratch held plus the point's addend. -/
theorem update_apply (c : Dev nD) (n : ℕ) (hb : n < cfg0.N) (acc : Vec Ideal S128x2048 .f32) (i : S128x2048.Idx) :
    (k0_pay2 (F := Ideal) (ablk m c (⟨n, hb⟩ : Fin cfg0.N)) (wblk m c (⟨n, hb⟩ : Fin cfg0.N)) acc : S128x2048.Idx → EReal) i
      = (acc : S128x2048.Idx → EReal) i + addend m c n i := by
  have hN : n < 32 := lt_of_lt_of_eq hb (show cfg0.N = 32 from N_0)
  obtain ⟨p, q, rfl⟩ : ∃ (p : Fin 128) (q : Fin 2048), i = ix2 p q := ⟨i 0, i 1, eq_ix2 i⟩
  refine (pay2_apply (ablk m c (⟨n, hb⟩ : Fin cfg0.N)) (wblk m c (⟨n, hb⟩ : Fin cfg0.N)) acc p q).trans ?_
  refine congrArg (fun z => (acc : S128x2048.Idx → EReal) (ix2 p q) + z) ?_
  unfold addend
  refine Finset.sum_congr rfl fun l _ => ?_
  have hl : 1024 * (n % 16) + l.val < 16384 := by have := l.isLt; omega
  have hq : 2048 * (n / 16) + q.val < 4096 := by have := q.isLt; omega
  unfold term rdA rdW
  rw [dif_pos hl, dif_pos ⟨hl, hq⟩]
  refine congrArg₂ (· * ·) ?_ ?_
  · exact ablk_apply m c (⟨n, hb⟩ : Fin cfg0.N) (ix2 p l) (ix2 p ⟨_, hl⟩) rfl rfl
  · exact wblk_apply m c (⟨n, hb⟩ : Fin cfg0.N) (ix2 l q) (ix2 ⟨_, hl⟩ ⟨_, hq⟩) rfl rfl

/-- THE SCRATCH AFTER POINT `t`, at an entry: the sum of the addends of the points of `t`'s run up to `t`. -/
theorem scratch_at (c : Dev nD) (t : Fin cfg0.N) (i : S128x2048.Idx) :
    ((outsAt0 m c t.val t.isLt).2 : S128x2048.Idx → EReal) i
      = ∑ s ∈ Finset.range (t.val % 16 + 1), addend m c (16 * (t.val / 16) + s) i := by
  have hN : t.val < 32 := lt_of_lt_of_eq t.isLt (show cfg0.N = 32 from N_0)
  refine (congrFun (Value.soutsAt0_0_eq m c t) i).trans ?_
  refine (Pipeline.accAt_add_apply (ι := S128x2048.Idx) (β := EReal)
    (fun n h => Value.scAt0_0 m c n h (VS0_0.read (Elt Ideal) VS0_0.junk)) (Value.scAt0_0 m c)
    (fun _ => 0) (addend m c) (16 * (t.val / 16)) 15 ?_ ?_ (t.val % 16) (by omega) _ i).trans (zero_add _)
  · intro h j
    show Value.scAt0_0 m c (16 * (t.val / 16)) h (VS0_0.read (Elt Ideal) VS0_0.junk) j = 0 + addend m c (16 * (t.val / 16)) j
    rw [scAt_reset m c (16 * (t.val / 16)) h (by omega)]
    refine (update_apply m c (16 * (t.val / 16)) h (k0_pay1 (F := Ideal)) j).trans ?_
    rw [pay1_apply]
  · intro n h acc j h1 h2
    rw [scAt_step m c n h (by omega)]
    exact update_apply m c n h acc j

end AtIdeal

end Cert.KernelIdeal.Region

end
-- ==== Proof.KernelRegion.lean ====
/-
  From the blocks to the array: the blocked matrix product with bias ends holding the product plus the bias row.

  At the last point of each run of sixteen the output block is the scratch, which by then holds the sum over all
  sixteen reduction tiles, plus the bias row's block.  Sixteen consecutive runs of 1024 contracted coordinates are
  the 16384 coordinates in order, so an entry of the block is the full inner product of a row of A and a column of W
  plus the bias entry of that column, at the entry of the array the block's rectangle names.  The two output blocks
  (column tiles 0 and 1) tile the array, each written back at the last point of its run, so the array after the run
  is that function everywhere.  When every entry of the three operands is a real number the sum is a real sum,
  coerced once.
-/
import proofs.«422672_j88218628260171_2_alg».proof.Proof.KernelRegionAcc
import Idealize.ShloMosaic.Lib.Pipeline.Value
import Idealize.ShloMosaic.Lib.ValueIdx
import Mathlib.Algebra.BigOperators.Fin
import Mathlib.Data.Fintype.BigOperators
import Mathlib.Logic.Equiv.Fin.Basic
import Mathlib.Data.EReal.Basic

noncomputable section

namespace Cert.KernelIdeal.Region

open Cert.KernelIdeal Cert.KernelIdeal.Gen Idealize.ShloMosaic Idealize.ShloMosaic.TcCoe Idealize.ShloMosaic.ValueIdx Idealize.SL.Sem

/-! ## The output block at the last point of a run, and the array

At the last point of a run the output block is the scratch, which now holds the whole inner products, plus the bias
row.  Sixteen runs of 1024 contracted coordinates are the 16384 coordinates in order. -/

/-- Sixteen consecutive runs of 1024 naturals are the first 16384 naturals, in any commutative sum. -/
theorem sum_runs {β : Type*} [AddCommMonoid β] (g : ℕ → β) :
    ∑ s ∈ Finset.range 16, ∑ l : Fin 1024, g (1024 * s + l.val) = ∑ k : Fin 16384, g k.val := by
  rw [Finset.sum_range (fun s => ∑ l : Fin 1024, g (1024 * s + l.val))]
  show _ = ∑ k : Fin (16 * 1024), g k.val
  rw [← Equiv.sum_comp (finProdFinEquiv (m := 16) (n := 1024)) (fun k => g k.val), Fintype.sum_prod_type]
  refine Finset.sum_congr rfl fun u _ => Finset.sum_congr rfl fun l _ => ?_
  rw [finProdFinEquiv_apply_val, Nat.add_comm]

section Output

variable (m : (ℓ : Loc nD τ sig) → Buf (Elt Ideal) ℓ)

/-- The product with bias, entry by entry, at the ideal values. -/
def G (A : S128x16384.Idx → EReal) (W : S16384x4096.Idx → EReal) (B : S1x4096.Idx → EReal) : S128x4096.Idx → EReal :=
  fun i => (∑ k : Fin 16384, A (ix2 (i 0) k) * W (ix2 k (i 1))) + B (ix2 (0 : Fin 1) (i 1))

/-- The output block of the last point of a run, at an entry, is the product with bias at the entry of the array
    the block's rectangle puts it at. -/
theorem out_entry (c : Dev nD) (t : Fin cfg0.N) (h1 : t.val % 16 = 15) (y : S128x2048.Idx) (i : S128x4096.Idx)
    (hi0 : (i 0).val = (y 0).val) (hi1 : (i 1).val = 2048 * (t.val / 16) + (y 1).val) :
    (k0_pay3 (F := Ideal) (outsAt0 m c t.val t.isLt).2 (bblk m c t) : S128x2048.Idx → EReal) y
      = G (Aarr m c) (Warr m c) (Barr m c) i := by
  have hN : t.val < 32 := lt_of_lt_of_eq t.isLt (show cfg0.N = 32 from N_0)
  obtain ⟨p, q, rfl⟩ : ∃ (p : Fin 128) (q : Fin 2048), y = ix2 p q := ⟨y 0, y 1, eq_ix2 y⟩
  have hq : 2048 * (t.val / 16) + q.val < 4096 := by have := q.isLt; omega
  obtain rfl : i = ix2 p ⟨2048 * (t.val / 16) + q.val, hq⟩ := by
    rw [eq_ix2 i]
    exact congrArg₂ ix2 (Fin.ext hi0) (Fin.ext hi1)
  have hsum : ∑ s ∈ Finset.range (t.val % 16 + 1), addend m c (16 * (t.val / 16) + s) (ix2 p q)
      = ∑ k : Fin 16384, (Aarr m c : S128x16384.Idx → EReal) (ix2 p k)
          * (Warr m c : S16384x4096.Idx → EReal) (ix2 k ⟨2048 * (t.val / 16) + q.val, hq⟩) := by
    rw [h1]
    calc ∑ s ∈ Finset.range (15 + 1), addend m c (16 * (t.val / 16) + s) (ix2 p q)
        = ∑ s ∈ Finset.range 16, ∑ l : Fin 1024,
            term (Aarr m c) (Warr m c) p (2048 * (t.val / 16) + q.val) (1024 * s + l.val) :=
          Finset.sum_congr rfl fun s hs => by
            have hs' : s < 16 := Finset.mem_range.mp hs
            have e1 : (16 * (t.val / 16) + s) % 16 = s := by omega
            have e2 : (16 * (t.val / 16) + s) / 16 = t.val / 16 := by omega
            unfold addend
            rw [e1, e2]
      _ = ∑ k : Fin 16384, term (Aarr m c) (Warr m c) p (2048 * (t.val / 16) + q.val) k.val :=
          sum_runs (term (Aarr m c) (Warr m c) p (2048 * (t.val / 16) + q.val))
      _ = ∑ k : Fin 16384, (Aarr m c : S128x16384.Idx → EReal) (ix2 p k)
            * (Warr m c : S16384x4096.Idx → EReal) (ix2 k ⟨2048 * (t.val / 16) + q.val, hq⟩) :=
          Finset.sum_congr rfl fun k _ => by
            unfold term rdA rdW
            rw [dif_pos k.isLt, dif_pos ⟨k.isLt, hq⟩]
  have hbias : (bblk m c t : S1x2048.Idx → EReal) (ix2 (0 : Fin 1) q)
      = (Barr m c : S1x4096.Idx → EReal) (ix2 (0 : Fin 1) ⟨2048 * (t.val / 16) + q.val, hq⟩) :=
    bblk_apply m c t (ix2 (0 : Fin 1) q) (ix2 (0 : Fin 1) ⟨_, hq⟩) rfl rfl
  refine (pay3_apply (outsAt0 m c t.val t.isLt).2 (bblk m c t) p q).trans ?_
  rw [scratch_at m c t (ix2 p q), hsum, hbias]
  rfl

/-- WHAT A FLUSHING POINT WRITES BACK is its block of the product with bias. -/
theorem flushed_eq (c : Dev nD) (t : Fin cfg0.N) (hf : (cfg0.win 3).flush t = true) :
    (dats m 0 c).flushed 3 t
      = ((cfg0.win 3).blk t).view.read (Elt Ideal) (G (Aarr m c) (Warr m c) (Barr m c)) := by
  have h1 : t.val % 16 = 15 := (flush0_3 t).mp hf
  have h0 : ¬t.val % 16 = 0 := by omega
  obtain ⟨-, -, -, -, -, -, e0, e1⟩ := idx_facts t
  have hs : (outsAt0 m c t.val t.isLt).2
      = k0_pay2 (ablk m c t) (wblk m c t) (outsAt0 m c (t.val - 1) (Nat.lt_of_le_of_lt (Nat.sub_le _ _) t.isLt)).2 := by
    rw [outsAt0_C m c t h0 h1]
    dsimp only
    exact sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  rw [Value.flushed3_C m c t h0 h1,
    out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  funext j
  show (k0_pay3 (F := Ideal) (k0_pay2 (ablk m c t) (wblk m c t) (outsAt0 m c (t.val - 1) (Nat.lt_of_le_of_lt (Nat.sub_le _ _) t.isLt)).2) (bblk m c t) : S128x2048.Idx → EReal) j
    = G (Aarr m c) (Warr m c) (Barr m c) (((cfg0.win 3).blk t).view.emb j)
  rw [← hs]
  refine out_entry m c t h1 j _ ?_ ?_
  · show win0_3.index t (0 : Fin 2) * 128 + 1 * (j 0).val = (j 0).val
    rw [e0]; omega
  · show win0_3.index t (1 : Fin 2) * 2048 + 1 * (j 1).val = 2048 * (t.val / 16) + (j 1).val
    rw [e1]; omega

/-- An entry of the array is under a point's output block exactly when each coordinate is in the block's range. -/
theorem mem_blk (t : Fin cfg0.N) (i : S128x4096.Idx) :
    i ∈ ((cfg0.win 3).blk t).view.set ↔ ∀ a : Fin 2, win0_3.index t a * S128x2048.size a ≤ (i a).val
      ∧ (i a).val < win0_3.index t a * S128x2048.size a + S128x2048.size a := by
  show i ∈ ((View.whole main_v13).slice (win0_3.rect t)).set ↔ _
  rw [View.set_slice_whole, Rect.mem_set_unit]
  exact Iff.rfl

/-- Every entry of the array is under the block of the last point of its column tile's run. -/
theorem cover (i : S128x4096.Idx) :
    ∃ t : Fin cfg0.N, (cfg0.win 3).flush t = true ∧ i ∈ ((cfg0.win 3).blk t).view.set := by
  have hi0 : (i 0).val < 128 := (i 0).isLt
  have hi1 : (i 1).val < 4096 := (i 1).isLt
  have hb : 16 * ((i 1).val / 2048) + 15 < cfg0.N := lt_of_lt_of_eq (by omega) (show cfg0.N = 32 from N_0).symm
  refine ⟨⟨16 * ((i 1).val / 2048) + 15, hb⟩, (flush0_3 _).mpr (by show (16 * ((i 1).val / 2048) + 15) % 16 = 15; omega), ?_⟩
  obtain ⟨-, -, -, -, -, -, e0, e1⟩ := idx_facts ⟨16 * ((i 1).val / 2048) + 15, hb⟩
  rw [mem_blk]
  intro a
  match a with
  | ⟨0, _⟩ =>
    show win0_3.index _ (0 : Fin 2) * 128 ≤ (i 0).val ∧ (i 0).val < win0_3.index _ (0 : Fin 2) * 128 + 128
    rw [e0]; omega
  | ⟨1, _⟩ =>
    show win0_3.index _ (1 : Fin 2) * 2048 ≤ (i 1).val ∧ (i 1).val < win0_3.index _ (1 : Fin 2) * 2048 + 2048
    rw [e1]
    show (16 * ((i 1).val / 2048) + 15) / 16 * 2048 ≤ (i 1).val ∧ (i 1).val < (16 * ((i 1).val / 2048) + 15) / 16 * 2048 + 2048
    omega

/-- The output array after the run is the product with bias, at the ideal values. -/
theorem arrAt_G (c : Dev nD) :
    ((dats m 0 c).arrAt 3 cfg0.N : S128x4096.Idx → EReal) = G (Aarr m c) (Warr m c) (Barr m c) :=
  (dats m 0 c).arrAt_eq_of_cover 3 (G (Aarr m c) (Warr m c) (Barr m c)) (flushed_eq m c) cover

/-- The coercion of a finite real sum is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE OUTPUT ARRAY after the run, when every entry of the three operands is a real: the real matrix product plus
    the bias row, coerced once. -/
theorem arrAt_eq (c : Dev nD)
    (ar : S128x16384.Idx → ℝ) (wr : S16384x4096.Idx → ℝ) (br : S1x4096.Idx → ℝ)
    (hA : ∀ i, (V m c main_arg0 : S128x16384.Idx → EReal) i = ((ar i : ℝ) : EReal))
    (hW : ∀ i, (V m c main_v11 : S16384x4096.Idx → EReal) i = ((wr i : ℝ) : EReal))
    (hB : ∀ i, (V m c main_v12 : S1x4096.Idx → EReal) i = ((br i : ℝ) : EReal)) :
    ((dats m 0 c).arrAt 3 cfg0.N : S128x4096.Idx → EReal)
      = fun i => (((∑ k : Fin 16384, ar (ix2 (i 0) k) * wr (ix2 k (i 1))) + br (ix2 (0 : Fin 1) (i 1)) : ℝ) : EReal) := by
  rw [arrAt_G]
  funext i
  unfold G
  rw [EReal.coe_add, coe_sum]
  refine congrArg₂ (· + ·) (Finset.sum_congr rfl fun k _ => ?_) (hB _)
  rw [EReal.coe_mul]
  exact congrArg₂ (· * ·) (hA _) (hW _)

end Output

end Cert.KernelIdeal.Region

end
-- ==== Proof.PreFacts.lean ====
/-
  The precondition read back. The printed precondition is the conjunction of seven bits, each a reduction by
  "and" over a whole array: three say that the absolute value of every float entry lies strictly below +∞, four
  say that every index word, read as a signed integer, lies in a half-open range. Assuming the conjunction is
  the all-ones scalar, every float entry is a real number and every index word lies in its range.
-/
import proofs.«422672_j88218628260171_2_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

namespace Cert.PreFacts

open Idealize.ShloMosaic

/-- The rank-0 shape has exactly one index. -/
instance : Subsingleton Cert.Pre_finite_inputs.S_.Idx := ⟨fun a b => funext fun d => d.elim0⟩

/-- The f32 pattern with all-ones exponent, zero fraction and clear sign denotes +∞. -/
theorem ofBits_inf : Ideal.ofBits .f32 0x7F800000#32 = (⊤ : EReal) := by
  simp [Ideal.ofBits, Ideal.ieee]

/-- An extended real whose absolute value max x (-x) lies strictly below +∞ is neither infinity, hence a real. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- The element fact of the three float conjuncts: the compare bit of |x| < +∞ being one makes x a real. -/
theorem real_of_bit (x : Ideal .f32)
    (h : FloatOps.cmpf (F := Ideal) .olt (FloatOps.hostAbsf (F := Ideal) x) (FloatOps.ofBits (F := Ideal) .f32 0x7F800000#32) = 1#1) :
    ∃ r : ℝ, x = (r : EReal) := by
  have h1 : Ideal.cmp .olt (max x (-x)) (Ideal.ofBits .f32 0x7F800000#32) = 1#1 := h
  rw [ofBits_inf] at h1
  simp only [Ideal.cmp, StableHlo.Predicate.ofBool_eq_one_iff, decide_eq_true_eq] at h1
  exact real_of_abs_lt_top x h1

theorem of_pre [Cert.Pre_finite_inputs.Facts]
    (x0 : FVec Ideal Cert.Pre_finite_inputs.S128x16384 .f32) (x1 : FVec Ideal Cert.Pre_finite_inputs.S2000000 .f32)
    (x2 : FVec Ideal Cert.Pre_finite_inputs.S4096 .f32) (x3 x4 : IVec Cert.Pre_finite_inputs.S2000000 32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
    ∧ (∀ i, 0 ≤ (x3 i).toInt ∧ (x3 i).toInt < 4096) ∧ (∀ i, 0 ≤ (x4 i).toInt ∧ (x4 i).toInt < 16384) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e1⟩, e2⟩, e3⟩, e4⟩, e5⟩, e6⟩ := h0
  have z0 : (0#32 : BitVec 32).toInt = 0 := by decide
  have zr : (4096#32 : BitVec 32).toInt = 4096 := by decide
  have zc : (16384#32 : BitVec 32).toInt = 16384 := by decide
  refine ⟨fun i => ?_, fun i => ?_, fun i => ?_, fun i => ⟨?_, ?_⟩, fun i => ⟨?_, ?_⟩⟩
  · exact real_of_bit (x0 i) (Host.reduce_andi_all _ _ _ _ _ e0 i)
  · exact real_of_bit (x1 i) (Host.reduce_andi_all _ _ _ _ _ e1 i)
  · exact real_of_bit (x2 i) (Host.reduce_andi_all _ _ _ _ _ e2 i)
  · have c : (0#32 : BitVec 32).toInt ≤ (x3 i).toInt := IntOp.cmpi_sge.1 (Host.reduce_andi_all _ _ _ _ _ e3 i)
    rwa [z0] at c
  · have c : (x3 i).toInt < (4096#32 : BitVec 32).toInt := IntOp.cmpi_slt.1 (Host.reduce_andi_all _ _ _ _ _ e4 i)
    rwa [zr] at c
  · have c : (0#32 : BitVec 32).toInt ≤ (x4 i).toInt := IntOp.cmpi_sge.1 (Host.reduce_andi_all _ _ _ _ _ e5 i)
    rwa [z0] at c
  · have c : (x4 i).toInt < (16384#32 : BitVec 32).toInt := IntOp.cmpi_slt.1 (Host.reduce_andi_all _ _ _ _ _ e6 i)
    rwa [zc] at c

end Cert.PreFacts
-- ==== Proof.Algebra.lean ====
/-
  The law that joins the two sides, over the real numbers, and the coercion of a finite real sum into the
  extended reals.

  A dense matrix is built from a sparse pattern by letting entry (k, r) collect the values of the pattern
  entries q with column k and row r. A row vector times that matrix, at r, is then the sum over the pattern
  entries of row r of (the vector at the entry's column) · (the entry's value): the product distributes over
  each collected sum, the double sum is exchanged, and for a fixed pattern entry only its own column survives.
  Distributivity is where real (finite) entries are needed.
-/
import Idealize.ShloMosaic.PureOps.Ideal.Laws

noncomputable section

open scoped BigOperators

namespace Cert.Algebra

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A vector against the matrix collected from a pattern: summing over the columns k the vector's entry times the
    values collected at (k, ·) under a side condition p is summing, over the pattern entries satisfying p, the
    vector at the entry's column times the entry's value. -/
theorem sum_mul_collected {K C : Type*} [Fintype K] [Fintype C] [DecidableEq C] (a : C → ℝ) (v : K → ℝ) (col : K → C)
    (p : K → Prop) [DecidablePred p] :
    ∑ k : C, a k * ∑ q ∈ Finset.univ.filter (fun q => p q ∧ col q = k), v q
      = ∑ q ∈ Finset.univ.filter p, a (col q) * v q := by
  classical
  simp_rw [Finset.mul_sum, Finset.sum_filter]
  rw [Finset.sum_comm]
  refine Finset.sum_congr rfl fun q _ => ?_
  by_cases hp : p q
  · simp only [hp, true_and, if_true]
    rw [Finset.sum_ite_eq]
    simp
  · simp [hp]

/-- The two sides, joined. On one side the real row a against the collected matrix plus a real bias β, coerced; on the
    other the extended-real sum over the pattern entries satisfying p of (the row at the entry's column) · (the
    entry's value), from zero, plus the bias — where the extended-real row, values and bias are those reals. -/
theorem collected_eq {K C : Type*} [Fintype K] [Fintype C] [DecidableEq C] (a : C → ℝ) (v : K → ℝ) (col : K → C)
    (p : K → Prop) [DecidablePred p] (β : ℝ) (x0 : C → EReal) (x1 : K → EReal) (xb : EReal)
    (h0 : ∀ k, x0 k = (a k : EReal)) (h1 : ∀ q, x1 q = (v q : EReal)) (hb : xb = (β : EReal)) :
    (((∑ k : C, a k * ∑ q ∈ Finset.univ.filter (fun q => p q ∧ col q = k), v q) + β : ℝ) : EReal)
      = (0 + ∑ q ∈ Finset.univ.filter p, x0 (col q) * x1 q) + xb := by
  rw [zero_add, EReal.coe_add, hb, sum_mul_collected a v col p, coe_sum]
  refine congrArg (fun t : EReal => t + (β : EReal)) (Finset.sum_congr rfl fun q _ => ?_)
  rw [EReal.coe_mul, h0, h1]

end Cert.Algebra

end
-- ==== Proof.KernelValue.lean ====
/-
  The kernel's result array is the specification's function of the five arguments.

  The region computes  inputs · W + bias  with W the matrix collected from the pattern (entry (k, n) the sum of the
  values of the pattern entries with column k and row n). Every float entry being a real number, the row of inputs
  against column n of W is, by distributing each input over the collected sum and exchanging the two sums, the sum
  over the pattern entries of row n of  inputs[b, column] · value — the specification's sum.
-/
import proofs.«422672_j88218628260171_2_alg».proof.Proof.KernelArrays
import proofs.«422672_j88218628260171_2_alg».proof.Proof.KernelRegion
import proofs.«422672_j88218628260171_2_alg».proof.Proof.PreFacts
import proofs.«422672_j88218628260171_2_alg».proof.Proof.Algebra

noncomputable section

open scoped BigOperators

namespace Cert.KernelIdeal.Host

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The collected matrix over the reals: entry (k, n) is the sum of the real values of the pattern entries whose
    row word is n and whose column word is k. -/
def collected (vr : (⟨1, ![2000000]⟩ : Shape).Idx → ℝ) (x3 x4 : IVec S2000000 32) (k : Fin 16384) (n : Fin 4096) : ℝ :=
  ∑ q ∈ Finset.univ.filter (fun q : Fin 2000000 =>
    (x3 (ix1 q)).toInt = (n.val : ℤ) ∧ Cert.Spec.colIx (x4 (ix1 q)) = k), vr (ix1 q)

/-- The same statement over named arrays of the literal vector types, equal to the memory's five arguments. -/
theorem arrAt_eq_G_of [Cert.Pre_finite_inputs.Facts] (c : Dev nD)
    (x0 : FVec Ideal S128x16384 .f32) (x1 : FVec Ideal S2000000 .f32) (x2 : FVec Ideal S4096 .f32)
    (x3 x4 : IVec S2000000 32)
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (e4 : m ((c : Thread nD τ).loc main_arg4) = x4)
    (hpre : Cert.Pre_finite_inputs.fn (F := Ideal) x0 x1 x2 x3 x4 = fun _ => 1#1) :
    ((dats m 0 c).arrAt 3 cfg0.N : S128x4096.Idx → EReal) = Cert.Spec.G x0 x1 x2 x3 x4 := by
  obtain ⟨h0, h1, h2, hr, hc⟩ := Cert.PreFacts.of_pre x0 x1 x2 x3 x4 hpre
  choose ar har using h0
  choose vr hvr using h1
  choose br hbr using h2
  have hA : ∀ i : S128x16384.Idx, (V m c main_arg0 : S128x16384.Idx → EReal) i = ((ar i : ℝ) : EReal) := fun i => by
    rw [V_main_arg0, e0]; exact har i
  have hW : ∀ i : S16384x4096.Idx, (V m c main_v11 : S16384x4096.Idx → EReal) i
      = ((collected vr x3 x4 (i 0) (i 1) : ℝ) : EReal) := fun i => by
    obtain ⟨k, n, rfl⟩ : ∃ (k : Fin 16384) (n : Fin 4096), i = ix2 k n := ⟨i 0, i 1, eq_ix2 i⟩
    have e : (V m c main_v11 : S16384x4096.Idx → EReal) (ix2 k n) = weightOf x1 x3 x4 (ix2 k n) := by
      rw [V_weight, e1, e3, e4]
    have e' : (weightOf x1 x3 x4 (ix2 k n) : EReal) = ((collected vr x3 x4 k n : ℝ) : EReal) := by
      rw [weightOf_apply x1 x3 x4 hr hc k n, zero_add]
      unfold collected
      rw [Cert.Algebra.coe_sum]
      exact Finset.sum_congr rfl fun q _ => hvr (ix1 q)
    exact e.trans e'
  have hB : ∀ i : S1x4096.Idx, (V m c main_v12 : S1x4096.Idx → EReal) i = ((br (ix1 (i 1)) : ℝ) : EReal) := fun i => by
    obtain ⟨z, n, rfl⟩ : ∃ (z : Fin 1) (n : Fin 4096), i = ix2 z n := ⟨i 0, i 1, eq_ix2 i⟩
    obtain rfl : z = 0 := Fin.ext (by have := z.isLt; omega)
    rw [V_bias_apply, e2]; exact hbr _
  rw [Cert.KernelIdeal.Region.arrAt_eq m c ar (fun i : S16384x4096.Idx => collected vr x3 x4 (i 0) (i 1))
    (fun i : S1x4096.Idx => br (ix1 (i 1))) hA hW hB]
  funext i
  show (((∑ k : Fin 16384, ar (ix2 (i 0) k) * collected vr x3 x4 k (i 1)) + br (ix1 (i 1)) : ℝ) : EReal) = _
  unfold collected Cert.Spec.G
  exact Cert.Algebra.collected_eq (fun k : Fin 16384 => ar (ix2 (i 0) k)) (fun q : Fin 2000000 => vr (ix1 q))
    (fun q : Fin 2000000 => Cert.Spec.colIx (x4 (ix1 q)))
    (fun q : Fin 2000000 => (x3 (ix1 q)).toInt = ((i 1).val : ℤ))
    (br (ix1 (i 1)))
    (fun k : Fin 16384 => x0 (ix2 (i 0) k)) (fun q : Fin 2000000 => x1 (ix1 q)) (x2 (ix1 (i 1)))
    (fun k => har _) (fun q => hvr _) (hbr _)

/-- Under the precondition the kernel's output array ends holding the specification's function of the arguments. -/
theorem arrAt_eq_G [Cert.Pre_finite_inputs.Facts] (c : Dev nD)
    (hpre : Cert.Pre_finite_inputs.fn (F := Ideal) (m ((c : Thread nD τ).loc main_arg0))
      (m ((c : Thread nD τ).loc main_arg1)) (m ((c : Thread nD τ).loc main_arg2))
      (m ((c : Thread nD τ).loc main_arg3)) (m ((c : Thread nD τ).loc main_arg4)) = fun _ => 1#1) :
    ((dats m 0 c).arrAt 3 cfg0.N : S128x4096.Idx → EReal)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) :=
  arrAt_eq_G_of m c _ _ _ _ _ rfl rfl rfl rfl rfl hpre

end Cert.KernelIdeal.Host

end
-- ==== Proof.RefValue.lean ====
/-
  The reference program's result, index by index: it is the common specification.

  The reference gathers a column of the inputs per pattern entry, scales it by the entry's value, and
  scatter-adds the products by the entries' row words into a zero array. Two facts about the literal
  dimension numbers carry the proof: which operand element the gather reads at a result index, and at
  which operand element an update of the scatter lands. Both are proved once, by coordinates. The sum over
  the two-coordinate update index then collapses to the sum over the pattern entries.
-/
import proofs.«422672_j88218628260171_2_alg».proof.Proof.Gen.ReferenceIdeal.Read
import proofs.«422672_j88218628260171_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The index of the [2000000, 1] table of index words with row k, column 0. -/
abbrev rowIx (k : Fin 2000000) : S2000000x1.Idx := ix2 k (⟨0, Nat.one_pos⟩ : Fin 1)

/-! ## The gather read at an index -/

/-- Result element (b, k) of the gather is the operand at row b and at the column the k-th start index names,
    read signed and clamped into [0, 16383]. -/
theorem gather_apply {α : Type} {w : Nat} (x : S128x16384.Idx → α) (idx : IVec S2000000x1 w) (j : S128x2000000.Idx) :
    Host.gather gather_S128x16384_S2000000x1_S128x2000000_0_1_n_n_1_1_1281 x idx j
      = x (ix2 (j 0) (⟨min (idx (rowIx (j 1))).toInt.toNat 16383, Nat.lt_succ_of_le (Nat.min_le_right _ _)⟩ : Fin 16384)) := by
  unfold Host.gather
  congr 1
  funext a
  refine Fin.ext ?_
  match a with
  | ⟨0, _⟩ =>
    -- axis 0 is the offset axis: no start, no batching coordinate, the result's coordinate 0
    show gather_S128x16384_S2000000x1_S128x2000000_0_1_n_n_1_1_1281.start j idx 0
      + gather_S128x16384_S2000000x1_S128x2000000_0_1_n_n_1_1_1281.batchCoord j 0
      + gather_S128x16384_S2000000x1_S128x2000000_0_1_n_n_1_1_1281.offCoord j 0 = (j 0).val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    -- axis 1 is the collapsed axis the start index names: the clamped start, nothing else
    show gather_S128x16384_S2000000x1_S128x2000000_0_1_n_n_1_1_1281.start j idx 1
      + gather_S128x16384_S2000000x1_S128x2000000_0_1_n_n_1_1_1281.batchCoord j 1
      + gather_S128x16384_S2000000x1_S128x2000000_0_1_n_n_1_1_1281.offCoord j 1 = min (idx (rowIx (j 1))).toInt.toNat 16383
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : gather_S128x16384_S2000000x1_S128x2000000_0_1_n_n_1_1_1281.siIdx j
        ⟨List.idxOf (1 : Fin 2) gather_S128x16384_S2000000x1_S128x2000000_0_1_n_n_1_1_1281.startIndexMap,
          List.idxOf_lt_length_iff.2 (by decide)⟩ = rowIx (j 1) := by
      funext c; refine Fin.ext ?_
      match c with
      | ⟨0, _⟩ => rfl
      | ⟨1, _⟩ => rfl
    rw [hsi]
    rfl

/-! ## Where an update of the scatter lands -/

/-- On axis 0 the window starts at the update's row word, read signed, and has the one coordinate 0 there. -/
theorem scatter_axis0 {w : Nat} (j : S2000000x128.Idx) (idx : IVec S2000000x1 w) :
    scatter_S4096x128_S2000000x1_S2000000x128_1_0_0_1.start j idx 0
      + (scatter_S4096x128_S2000000x1_S2000000x128_1_0_0_1.window j 0 : ℤ) = (idx (rowIx (j 0))).toInt := by
  unfold ScatterDims.start ScatterDims.window
  rw [dif_pos (by decide), dif_neg (by decide)]
  have hsi : scatter_S4096x128_S2000000x1_S2000000x128_1_0_0_1.siIdx j
      ⟨List.idxOf (0 : Fin 2) scatter_S4096x128_S2000000x1_S2000000x128_1_0_0_1.scatterDimsToOperandDims,
        List.idxOf_lt_length_iff.2 (by decide)⟩ = rowIx (j 0) := by
    funext c; refine Fin.ext ?_
    match c with
    | ⟨0, _⟩ => rfl
    | ⟨1, _⟩ => rfl
  rw [hsi]
  simp

/-- On axis 1 the window starts at 0 and its coordinate is the update's second coordinate. -/
theorem scatter_axis1 {w : Nat} (j : S2000000x128.Idx) (idx : IVec S2000000x1 w) :
    scatter_S4096x128_S2000000x1_S2000000x128_1_0_0_1.start j idx 1
      + (scatter_S4096x128_S2000000x1_S2000000x128_1_0_0_1.window j 1 : ℤ) = ((j 1).val : ℤ) := by
  unfold ScatterDims.start ScatterDims.window
  rw [dif_neg (by decide), dif_pos (by decide)]
  rw [Int.zero_add]
  rfl

/-- Update (k, c) lands on operand element (r, b) exactly when the k-th row word, read signed, is r and c is b;
    a row word outside [0, 4096) lands nowhere. -/
theorem scatter_resultIdx {w : Nat} (j : S2000000x128.Idx) (idx : IVec S2000000x1 w) (r : Fin 4096) (b : Fin 128) :
    scatter_S4096x128_S2000000x1_S2000000x128_1_0_0_1.resultIdx? j idx = some (ix2 r b)
      ↔ (idx (rowIx (j 0))).toInt = (r.val : ℤ) ∧ j 1 = b := by
  have e0 := scatter_axis0 j idx
  have e1 := scatter_axis1 j idx
  have hj1 : (j 1).val < 128 := idx2_lt1 j
  unfold ScatterDims.resultIdx?
  split
  · rename_i h
    have b0 := h 0
    rw [e0] at b0
    constructor
    · intro hf
      have hf' := Option.some.inj hf
      have f0 := congrArg (fun f : S4096x128.Idx => (f 0).val) hf'
      have f1 := congrArg (fun f : S4096x128.Idx => (f 1).val) hf'
      simp only [e0, e1] at f0 f1
      refine ⟨?_, Fin.ext ?_⟩
      · change (idx (rowIx (j 0))).toInt.toNat = r.val at f0
        omega
      · change ((j 1).val : ℤ).toNat = b.val at f1
        omega
    · rintro ⟨hr, hb⟩
      refine congrArg some (funext fun a => Fin.ext ?_)
      match a with
      | ⟨0, _⟩ =>
        show (scatter_S4096x128_S2000000x1_S2000000x128_1_0_0_1.start j idx 0
          + (scatter_S4096x128_S2000000x1_S2000000x128_1_0_0_1.window j 0 : ℤ)).toNat = r.val
        rw [e0]; omega
      | ⟨1, _⟩ =>
        show (scatter_S4096x128_S2000000x1_S2000000x128_1_0_0_1.start j idx 1
          + (scatter_S4096x128_S2000000x1_S2000000x128_1_0_0_1.window j 1 : ℤ)).toNat = b.val
        rw [e1, ← hb]; omega
  · rename_i h
    constructor
    · intro hf; cases hf
    · rintro ⟨hr, hb⟩
      exfalso; apply h
      intro a
      have hr' : r.val < 4096 := r.isLt
      match a with
      | ⟨0, _⟩ =>
        show 0 ≤ scatter_S4096x128_S2000000x1_S2000000x128_1_0_0_1.start j idx 0
            + (scatter_S4096x128_S2000000x1_S2000000x128_1_0_0_1.window j 0 : ℤ)
          ∧ scatter_S4096x128_S2000000x1_S2000000x128_1_0_0_1.start j idx 0
            + (scatter_S4096x128_S2000000x1_S2000000x128_1_0_0_1.window j 0 : ℤ) < (4096 : ℕ)
        rw [e0]; omega
      | ⟨1, _⟩ =>
        show 0 ≤ scatter_S4096x128_S2000000x1_S2000000x128_1_0_0_1.start j idx 1
            + (scatter_S4096x128_S2000000x1_S2000000x128_1_0_0_1.window j 1 : ℤ)
          ∧ scatter_S4096x128_S2000000x1_S2000000x128_1_0_0_1.start j idx 1
            + (scatter_S4096x128_S2000000x1_S2000000x128_1_0_0_1.window j 1 : ℤ) < (128 : ℕ)
        rw [e1]; omega

/-! ## A scatter-add over a two-coordinate update index, read at an element -/

/-- Stated for arbitrary extents. Suppose update (k, c) lands on the operand element i exactly when k satisfies P and
    c is b. Then the scatter-add at i is the operand there plus the sum, over the k satisfying P, of the update at
    (k, b): of the second coordinates only b contributes. -/
theorem hostScatterAdd_apply_of_iff {n0 n1 : Nat} {s si : Shape} (d : ScatterDims s si ⟨2, ![n0, n1]⟩) {w : Nat}
    (x : s.Idx → EReal) (idx : IVec si w) (upd : (⟨2, ![n0, n1]⟩ : Shape).Idx → EReal) (i : s.Idx)
    (P : Fin n0 → Prop) [DecidablePred P] (b : Fin n1)
    (h : ∀ j, d.resultIdx? j idx = some i ↔ P (j 0) ∧ j 1 = b) :
    Ideal.hostScatterAdd d x idx upd i = x i + ∑ k ∈ Finset.univ.filter P, upd (ix2 k b) := by
  unfold Ideal.hostScatterAdd
  refine congrArg (fun t : EReal => x i + t) ?_
  rw [Finset.sum_filter, sum_idx2, Finset.sum_filter]
  refine Finset.sum_congr rfl fun k _ => ?_
  by_cases hP : P k
  · -- the first coordinate passes: of the second coordinates only b is left
    rw [if_pos hP, Finset.sum_eq_single b]
    · exact if_pos ((h (ix2 k b)).2 ⟨hP, rfl⟩)
    · intro c _ hc; exact if_neg fun hh => hc ((h (ix2 k c)).1 hh).2
    · intro hb; exact absurd (Finset.mem_univ b) hb
  · -- it does not: every term is zero
    rw [if_neg hP]
    exact Finset.sum_eq_zero fun c _ => if_neg fun hh => hP ((h (ix2 k c)).1 hh).1

/-- The same for the host's scatter-add operation at the ideal values, which is that function. Stated for
    arbitrary extents. -/
theorem scatterAdd_apply_of_iff {n0 n1 : Nat} {s si : Shape} (d : ScatterDims s si ⟨2, ![n0, n1]⟩) {w : Nat}
    (x : FVec Ideal s .f32) (idx : IVec si w) (upd : FVec Ideal ⟨2, ![n0, n1]⟩ .f32) (i : s.Idx)
    (P : Fin n0 → Prop) [DecidablePred P] (b : Fin n1)
    (h : ∀ j, d.resultIdx? j idx = some i ↔ P (j 0) ∧ j 1 = b) :
    Host.scatterAdd (F := Ideal) d x idx upd i = x i + ∑ k ∈ Finset.univ.filter P, upd (ix2 k b) := by
  unfold Host.scatterAdd
  rw [Ideal.hostScatterAdd_def]
  exact hostScatterAdd_apply_of_iff d x idx upd i P b h

/-! ## The stages the scatter and the gather read, at an index -/

/-- A signed comparison "below zero" of a word that is not negative is the bit 0. -/
theorem cmpi_slt_zero_of_nonneg (w : BitVec 32) (h : 0 ≤ w.toInt) : IntOp.cmpi .slt w 0#32 = 0#1 := by
  unfold IntOp.cmpi
  have : w.slt 0#32 = false := by
    rw [BitVec.slt]
    simp only [BitVec.toInt_zero, decide_eq_false_iff_not, not_lt]
    exact h
  simp only [this]
  rfl

/-- The row words as a [2000000, 1] table: row k holds the k-th row word. -/
theorem v12_at (x3 : IVec S2000000 32) (k : Fin 2000000) :
    Read.val_main_v12 (F := Ideal) x3 (rowIx k) = x3 (ix1 k) := by
  rw [Read.val_main_v12_apply]
  have hi : Read.idx_main_v12 (rowIx k) = ix1 k := by funext a; match a with | ⟨0, _⟩ => rfl
  rw [hi]

/-- The column words as a [2000000, 1] table: a column word that is not negative is kept as it is. -/
theorem v5_at (x4 : IVec S2000000 32) (h4 : ∀ i, 0 ≤ (x4 i).toInt) (k : Fin 2000000) :
    Read.val_main_v5 (F := Ideal) x4 (rowIx k) = x4 (ix1 k) := by
  rw [Read.val_main_v5_apply]
  have hi : Read.idx_main_v5 (rowIx k) = ix1 k := by funext a; match a with | ⟨0, _⟩ => rfl
  rw [hi, Read.val_main_v4_apply, Read.val_main_v1_apply, Read.val_main_v0_apply, Read.val_main_c_apply,
    cmpi_slt_zero_of_nonneg _ (h4 _), select_zero]

/-- The array the scatter accumulates into is zero everywhere. -/
theorem v11_at (i : S4096x128.Idx) : Read.val_main_v11 (F := Ideal) i = 0 := by
  rw [Read.val_main_v11_apply, Read.val_main_cst_apply]
  exact Ideal.ofBits_zero_f32

/-- The updates: entry (k, b) is the input at batch row b and at the k-th column word, clamped, times the k-th value. -/
theorem v10_at (x0 : FVec Ideal S128x16384 .f32) (x1 : FVec Ideal S2000000 .f32) (x4 : IVec S2000000 32)
    (h4 : ∀ i, 0 ≤ (x4 i).toInt) (k : Fin 2000000) (b : Fin 128) :
    Read.val_main_v10 (F := Ideal) x0 x1 x4 (ix2 k b)
      = x0 (ix2 b (Cert.Spec.colIx (x4 (ix1 k)))) * x1 (ix1 k) := by
  rw [Read.val_main_v10_apply]
  have hi10 : Read.idx_main_v10 (ix2 k b) = ix2 b k := by
    funext a; match a with | ⟨0, _⟩ => rfl | ⟨1, _⟩ => rfl
  rw [hi10, Read.val_main_v9_apply, Ideal.mulf_def, Read.val_main_v8_apply, Read.val_main_v7_apply]
  have hi7 : Read.idx_main_v7 (Read.idx_main_v8 (ix2 b k)) = ix1 k := by funext a; match a with | ⟨0, _⟩ => rfl
  rw [hi7]
  unfold Read.val_main_v6
  rw [gather_apply]
  show x0 (ix2 b (⟨min (Read.val_main_v5 (F := Ideal) x4 (rowIx k)).toInt.toNat 16383, _⟩ : Fin 16384)) * x1 (ix1 k) = _
  simp only [v5_at x4 h4 k]
  rfl

/-! ## The reference's result is the specification -/

/-- With no column word negative, the reference's result at (b, r) is zero plus the sum, over the pattern entries whose
    row word is r, of the input at (b, the entry's column word clamped) times the entry's value, plus the bias at r. -/
theorem val_eq_G (x0 : FVec Ideal S128x16384 .f32) (x1 : FVec Ideal S2000000 .f32) (x2 : FVec Ideal S4096 .f32)
    (x3 x4 : IVec S2000000 32) (h4 : ∀ i, 0 ≤ (x4 i).toInt) :
    Cert.ReferenceIdeal.Read.val_main_v17 (F := Ideal) x0 x1 x2 x3 x4 = Cert.Spec.G x0 x1 x2 x3 x4 := by
  funext i
  obtain ⟨b, r, rfl⟩ : ∃ b r, i = ix2 b r := ⟨i 0, i 1, eq_ix2 i⟩
  rw [Read.val_main_v17_apply, Read.val_main_v16_apply, Read.val_main_v15_apply, Read.val_main_v14_apply]
  have hi14 : Read.idx_main_v14 (ix2 b r) = ix2 r b := by
    funext a; match a with | ⟨0, _⟩ => rfl | ⟨1, _⟩ => rfl
  have hi15 : Read.idx_main_v15 (Read.idx_main_v16 (ix2 b r)) = ix1 r := by
    funext a; match a with | ⟨0, _⟩ => rfl
  rw [hi14, hi15, Ideal.addf_def]
  unfold Cert.Spec.G
  show Read.val_main_v13 (F := Ideal) x0 x1 x3 x4 (ix2 r b) + x2 (ix1 r)
    = (0 + ∑ k ∈ Finset.univ.filter (fun k : Fin 2000000 => (x3 (ix1 k)).toInt = (r.val : ℤ)),
        x0 (ix2 b (Cert.Spec.colIx (x4 (ix1 k)))) * x1 (ix1 k)) + x2 (ix1 r)
  refine congrArg (fun t : EReal => t + x2 (ix1 r)) ?_
  -- the scatter stage is the host's scatter-add of the zero array, the row words' table and the updates
  have e13 : Read.val_main_v13 (F := Ideal) x0 x1 x3 x4
      = Host.scatterAdd (F := Ideal) scatter_S4096x128_S2000000x1_S2000000x128_1_0_0_1 (Read.val_main_v11 (F := Ideal))
          (Read.val_main_v12 (F := Ideal) x3) (Read.val_main_v10 (F := Ideal) x0 x1 x4) := rfl
  -- the updates, entry by entry
  have hsum : ∑ k ∈ Finset.univ.filter (fun k : Fin 2000000 => (x3 (ix1 k)).toInt = (r.val : ℤ)),
        Read.val_main_v10 (F := Ideal) x0 x1 x4 (ix2 k b)
      = ∑ k ∈ Finset.univ.filter (fun k : Fin 2000000 => (x3 (ix1 k)).toInt = (r.val : ℤ)),
        x0 (ix2 b (Cert.Spec.colIx (x4 (ix1 k)))) * x1 (ix1 k) :=
    Finset.sum_congr rfl fun k _ => v10_at x0 x1 x4 h4 k b
  -- an update (k, c) lands at (r, b) exactly when the k-th row word is r and c is b
  have hland : ∀ j : S2000000x128.Idx,
      scatter_S4096x128_S2000000x1_S2000000x128_1_0_0_1.resultIdx? j (Read.val_main_v12 (F := Ideal) x3) = some (ix2 r b)
        ↔ (x3 (ix1 (j 0))).toInt = (r.val : ℤ) ∧ j 1 = b := fun j =>
    (scatter_resultIdx j (Read.val_main_v12 (F := Ideal) x3) r b).trans
      (Iff.of_eq (congrArg (fun t : BitVec 32 => t.toInt = (r.val : ℤ) ∧ j 1 = b) (v12_at x3 (j 0))))
  exact (congrFun e13 (ix2 r b)).trans
    ((scatterAdd_apply_of_iff scatter_S4096x128_S2000000x1_S2000000x128_1_0_0_1 (Read.val_main_v11 (F := Ideal))
        (Read.val_main_v12 (F := Ideal) x3) (Read.val_main_v10 (F := Ideal) x0 x1 x4) (ix2 r b)
        (fun k : Fin 2000000 => (x3 (ix1 k)).toInt = (r.val : ℤ)) b hland).trans
      (congrArg₂ (fun u v : EReal => u + v) (v11_at (ix2 r b)) hsum))

end Cert.ReferenceIdeal.RefValue

end
-- ==== Proof.lean ====
/-
  A sparse linear layer in coordinate form against a dense blocked matrix product.

  The pattern has two million entries, each a value with a row word in [0, 4096) and a column word in [0, 16384).
  The reference gathers, per entry, the input column the entry names, scales it by the entry's value and adds the
  product into the output column the entry's row names, then adds the bias: at (b, r) the sum over the entries of
  row r of  inputs[b, column] · value,  plus bias[r]. The kernel first collects the pattern into a dense
  [16384, 4096] matrix W (entry (k, n) the sum of the values of the entries with column k and row n, through a flat
  scatter-add at position column · 4096 + row) and then computes  inputs · W + bias  block by block, accumulating
  sixteen reduction tiles per output block. Over the extended reals, with every float input a real number and every
  index word in its range, the two agree: each input distributes over the collected sum, the double sum is
  exchanged, and for a fixed pattern entry only its own column contributes. The index ranges are needed because
  outside them the reference's gather clamps and its scatter drops while the kernel's flat position wraps or lands
  elsewhere; the finiteness is needed for distributivity.

  The three frame claims are the generated frames (the reference's from its generated run); the idealization rewrote
  nothing, so there is nothing to preserve; the value claim sets the kernel's run, its output array read as the
  specification's function, beside the reference's run, its result read as the same function.
-/
import proofs.«422672_j88218628260171_2_alg».proof.Defs
import proofs.«422672_j88218628260171_2_alg».proof.Proof.Gen.Kernel
import proofs.«422672_j88218628260171_2_alg».proof.Proof.Gen.Kernel.Skeleton
import proofs.«422672_j88218628260171_2_alg».proof.Proof.Gen.Kernel.Launch
import proofs.«422672_j88218628260171_2_alg».proof.Proof.Gen.Kernel.Points
import proofs.«422672_j88218628260171_2_alg».proof.Proof.Gen.Kernel.Frame
import proofs.«422672_j88218628260171_2_alg».proof.Proof.Gen.KernelIdeal
import proofs.«422672_j88218628260171_2_alg».proof.Proof.Gen.KernelIdeal.Skeleton
import proofs.«422672_j88218628260171_2_alg».proof.Proof.Gen.KernelIdeal.Launch
import proofs.«422672_j88218628260171_2_alg».proof.Proof.Gen.KernelIdeal.Points
import proofs.«422672_j88218628260171_2_alg».proof.Proof.Gen.KernelIdeal.Frame
import proofs.«422672_j88218628260171_2_alg».proof.Proof.Gen.ReferenceIdeal
import proofs.«422672_j88218628260171_2_alg».proof.Proof.Gen.Pre_finite_inputs
import proofs.«422672_j88218628260171_2_alg».proof.Proof.Gen.KernelIdeal.Value
import proofs.«422672_j88218628260171_2_alg».proof.Proof.Gen.ReferenceIdeal.Run
import proofs.«422672_j88218628260171_2_alg».proof.Proof.Gen.ReferenceIdeal.Read
import proofs.«422672_j88218628260171_2_alg».proof.Proof.KernelValue
import proofs.«422672_j88218628260171_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments, under the precondition, both programs end with the specification's
    function of the arguments in their result array. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Host.arrAt_eq_G m c (hpre c)), (h c).2⟩)
      (Cert.KernelIdeal.Value.run_blocks (F := Ideal) m ρ)
  · refine (θ_run Cert.ReferenceIdeal.defs _ _).mono (fun r h c => ⟨?_, (h c).2⟩)
      (Cert.ReferenceIdeal.Value.run (F := Ideal) m' ρ')
    have hcols := (Cert.PreFacts.of_pre _ _ _ _ _ (hpre c)).2.2.2.2
    rw [(h c).1, Cert.ReferenceIdeal.Read.val_main_v17_eq, (hagree c).1, (hagree c).2.1, (hagree c).2.2.1,
      (hagree c).2.2.2.1, (hagree c).2.2.2.2]
    exact Cert.ReferenceIdeal.RefValue.val_eq_G _ _ _ _ _ (fun i => (hcols i).1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
